-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256x64 : Shape := ⟨3, ![1024, 256, 64]⟩
abbrev S1024x64 : Shape := ⟨2, ![1024, 64]⟩
abbrev S_ : Shape := ⟨0, ![]⟩

class Facts : Prop where
  bcast_S_S1024x256x64 : S_.BroadcastsInDim S1024x256x64 (![] : Fin 0 → Fin S1024x256x64.rank)
  reducesTo_S1024x256x64_S_d0_1_2 : S1024x256x64.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S1024x256x64 .f32) (main_arg1 : FVec F S1024x256x64 .f32) (main_arg2 : FVec F S1024x64 .f32) : IVec S_ 1 :=
  let main_v0 : FVec F S1024x256x64 .f32 := Host.absf main_arg0
  let main_cst : FVec F S_ .f32 := constant S_ .f32 0x7F800000#32
  let main_v1 : FVec F S1024x256x64 .f32 := broadcastInDim S1024x256x64 ![] bcast_S_S1024x256x64 main_cst
  let main_v2 : IVec S1024x256x64 1 := cmpf .olt main_v0 main_v1
  let main_c : IVec S_ 1 := constantI S_ 1 1#1
  let main_v3 : IVec S_ 1 := (fun x v => Host.reduce IntOp.andi x v reducesTo_S1024x256x64_S_d0_1_2 h_S_) main_v2 main_c
  let main_v4 : FVec F S1024x256x64 .f32 := Host.absf main_arg1
  let main_cst_0 : FVec F S_ .f32 := constant S_ .f32 0x7F800000#32
  let main_v5 : FVec F S1024x256x64 .f32 := broadcastInDim S1024x256x64 ![] bcast_S_S1024x256x64 main_cst_0
  let main_v6 : IVec S1024x256x64 1 := cmpf .olt main_v4 main_v5
  let main_c_1 : IVec S_ 1 := constantI S_ 1 1#1
  let main_v7 : IVec S_ 1 := (fun x v => Host.reduce IntOp.andi x v reducesTo_S1024x256x64_S_d0_1_2 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  main_v13
-- ==== Kernel.lean ====
abbrev S1024x256x64 : Shape := ⟨3, ![1024, 256, 64]⟩
abbrev S1024x64 : Shape := ⟨2, ![1024, 64]⟩
abbrev S64x1024 : Shape := ⟨2, ![64, 1024]⟩
abbrev S1x1024 : Shape := ⟨2, ![1, 1024]⟩
abbrev S64x256x64 : Shape := ⟨3, ![64, 256, 64]⟩
abbrev S64x64 : Shape := ⟨2, ![64, 64]⟩
abbrev S1024 : Shape := ⟨1, ![1024]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S1024x256x64, .f32⟩
  | .hbm, ⟨1, _⟩ => ⟨S1024x256x64, .f32⟩
  | .hbm, ⟨2, _⟩ => ⟨S1024x64, .f32⟩
  | .hbm, ⟨3, _⟩ => ⟨S64x1024, .f32⟩
  | .hbm, ⟨4, _⟩ => ⟨S1x1024, .f32⟩
  | .hbm, ⟨5, _⟩ => ⟨S1024, .f32⟩
  | .hbm, ⟨6, _⟩ => ⟨S_, .f32⟩
  | .hbm, ⟨7, _⟩ => ⟨S1024, .f32⟩
  | .hbm, ⟨8, _⟩ => ⟨S1024, .f32⟩
  | .local _ .vmem, ⟨0, _⟩ => ⟨S64x256x64, .f32⟩
  | .local _ .vmem, ⟨1, _⟩ => ⟨S64x256x64, .f32⟩
  | .local _ .vmem, ⟨2, _⟩ => ⟨S64x256x64, .f32⟩
  | .local _ .vmem, ⟨3, _⟩ => ⟨S64x256x64, .f32⟩
  | .local _ .vmem, ⟨4, _⟩ => ⟨S64x1024, .f32⟩
  | .local _ .vmem, ⟨5, _⟩ => ⟨S1x1024, .f32⟩
  | _, _ => ⟨S1024x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  transposes_S1024x64_S64x1024_1_0 : S1024x64.Transposes [1, 0] S64x1024
  inb_S1x1024_S1x1024_0_0 : ∀ a, (![0, 0] : Fin 2 → Nat) a + S1x1024.size a ≤ S1x1024.size a
  h_S1x1024 : 0 < S1x1024.numel
  inb_S64x256x64_S64x256x64_0_0_0 : ∀ a, (![0, 0, 0] : Fin 3 → Nat) a + S64x256x64.size a ≤ S64x256x64.size a
  h_S64x256x64 : 0 < S64x256x64.numel
  reduces_S64x256x64_S64x64 : S64x256x64.Reduces [1] S64x64
  bitsLt_bf16_f32 : FTy.bits .bf16 < FTy.bits .f32
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  reduces_S64x1024_S1024 : S64x1024.Reduces [0] S1024
  shapeCasts_S1024_S1x1024 : S1024.ShapeCasts S1x1024
  shapeCasts_S1x1024_S1x1024 : S1x1024.ShapeCasts S1x1024
  shapeCasts_S1x1024_S1024 : S1x1024.ShapeCasts S1024
  bcast_S_S1024 : S_.BroadcastsInDim S1024 (![] : Fin 0 → Fin S1024.rank)
  dot_S64x64_S64x1024_S64x1024_1_0_0_1_n_n_wf : DotDims.WF S64x64 S64x1024 S64x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x256x64.size a ≤ S1024x256x64.size a
  hwx0_0 : ∀ i : grid0.Coords, EltTy.bits .f32 = 32 ∨ (Rect.block (s := S1024x256x64) S64x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x256x64.size a ≤ S1024x256x64.size a
  hwx0_1 : ∀ i : grid0.Coords, EltTy.bits .f32 = 32 ∨ (Rect.block (s := S1024x256x64) S64x256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S64x1024.size a
  hwx0_2 : ∀ i : grid0.Coords, EltTy.bits .f32 = 32 ∨ (Rect.block (s := S64x1024) S64x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)

variable [Facts₀]

def dot_S64x64_S64x1024_S64x1024_1_0_0_1_n_n : DotDims S64x64 S64x1024 S64x1024 where
  lhsContracting := [1]
  rhsContracting := [0]
  lhsNonContracting := [0]
  rhsNonContracting := [1]
  lhsBatch := []
  rhsBatch := []
  wf := dot_S64x64_S64x1024_S64x1024_1_0_0_1_n_n_wf

abbrev win0_0 : Pipeline.Window sig grid0 :=
  Pipeline.Window.ofSpec (Memref.whole main_arg0) S64x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x256x64 : Shape := ⟨3, ![1024, 256, 64]⟩
abbrev S1024x64 : Shape := ⟨2, ![1024, 64]⟩
abbrev S_ : Shape := ⟨0, ![]⟩
abbrev S1024x1024 : Shape := ⟨2, ![1024, 1024]⟩
abbrev S1024 : Shape := ⟨1, ![1024]⟩

abbrev nBuf : Space → Nat
  | .hbm => 15
  | .vmem => 0
  | .smem => 0
  | _ => 0

abbrev bufTy : (tb : Table) → Fin (tcTables nBuf tb) → BufTy
  | .hbm, ⟨0, _⟩ => ⟨S1024x256x64, .f32⟩
  | .hbm, ⟨1, _⟩ => ⟨S1024x256x64, .f32⟩
  | .hbm, ⟨2, _⟩ => ⟨S1024x64, .f32⟩
  | .hbm, ⟨3, _⟩ => ⟨S_, .f32⟩
  | .hbm, ⟨4, _⟩ => ⟨S1024x64, .f32⟩
  | .hbm, ⟨5, _⟩ => ⟨S1024x1024, .f32⟩
  | .hbm, ⟨6, _⟩ => ⟨S_, .f32⟩
  | .hbm, ⟨7, _⟩ => ⟨S1024x64, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S1024, .f32⟩
  | .hbm, ⟨12, _⟩ => ⟨S_, .f32⟩
  | .hbm, ⟨13, _⟩ => ⟨S1024, .f32⟩
  | .hbm, ⟨14, _⟩ => ⟨S1024, .f32⟩
  | _, _ => ⟨S1024x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩

abbrev nD : Nat := 1
abbrev τ : Topo := Topo.v7x

variable {F : FTy → Type} [FloatOps F]

class Facts₀ : Prop where
  reducesTo_S1024x256x64_S1024x64_d1 : S1024x256x64.ReducesTo [1] S1024x64
  h_S_ : 0 < S_.numel
  reducesTo_S1024x1024_S1024_d0 : S1024x1024.ReducesTo [0] S1024
  bcast_S_S1024 : S_.BroadcastsInDim S1024 (![] : Fin 0 → Fin S1024.rank)
  dot_S1024x64_S1024x64_S1024x1024_1_1_0_0_n_n_wf : DotDims.WF S1024x64 S1024x64 S1024x1024 [1] [1] [0] [0] [] []

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

class Facts : Prop extends Facts₀ where

variable [Facts]
-- ==== Proof.LibSumBlocks.lean ====
/- A sum over a flat row-major index is the nested sum over its coordinates. -/
import Mathlib.Data.Fintype.BigOperators
import Mathlib.Logic.Equiv.Fin.Basic

/-- The row-major position of the pair `(a, b)` in an `m × n` grid lies below `m * n`. -/
theorem Fin.rowMajor_lt {m n : ℕ} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right n a.isLt

/-- Two axes: a sum over the flat index of an `m × n` grid is the sum over the rows of the sums along each row.
    The pairs `(a, b)` are in bijection with the flat positions `a * n + b`, and a sum over pairs is an iterated sum. -/
theorem Fin.sum_rowMajor2 {M : Type*} [AddCommMonoid M] (m n : ℕ) (f : Fin (m * n) → M) :
    ∑ e, f e = ∑ a : Fin m, ∑ b : Fin n, f ⟨a.val * n + b.val, Fin.rowMajor_lt a b⟩ := by
  rw [← Fintype.sum_prod_type' (f := fun (a : Fin m) (b : Fin n) => f ⟨a.val * n + b.val, Fin.rowMajor_lt a b⟩)]
  exact (Fintype.sum_equiv finProdFinEquiv (fun p : Fin m × Fin n => f ⟨p.1.val * n + p.2.val, Fin.rowMajor_lt p.1 p.2⟩) f
    (fun p => congrArg f (Fin.ext (by simp [Nat.mul_comm, Nat.add_comm])))).symm

/-- Four axes: a sum over the flat row-major index of an `n0 × n1 × n2 × n3` grid is the nested sum over its four
    coordinates, the last axis innermost — the two-axis statement applied to the last axis, then to the third, then to
    the second. -/
theorem Fin.sum_rowMajor4 {M : Type*} [AddCommMonoid M] (n0 n1 n2 n3 : ℕ) (f : Fin (n0 * n1 * n2 * n3) → M) :
    ∑ e, f e = ∑ a : Fin n0, ∑ b : Fin n1, ∑ c : Fin n2, ∑ d : Fin n3,
      f ⟨((a.val * n1 + b.val) * n2 + c.val) * n3 + d.val,
        Fin.rowMajor_lt (⟨(a.val * n1 + b.val) * n2 + c.val,
          Fin.rowMajor_lt (⟨a.val * n1 + b.val, Fin.rowMajor_lt a b⟩ : Fin (n0 * n1)) c⟩ : Fin (n0 * n1 * n2)) d⟩ :=
  (Fin.sum_rowMajor2 (n0 * n1 * n2) n3 f).trans <|
  (Fin.sum_rowMajor2 (n0 * n1) n2 (fun x => ∑ d : Fin n3, f ⟨x.val * n3 + d.val, Fin.rowMajor_lt x d⟩)).trans <|
  Fin.sum_rowMajor2 n0 n1 (fun y => ∑ c : Fin n2, ∑ d : Fin n3,
    f ⟨(y.val * n2 + c.val) * n3 + d.val, Fin.rowMajor_lt (⟨y.val * n2 + c.val, Fin.rowMajor_lt y c⟩ : Fin (n0 * n1 * n2)) d⟩)

/-- The instance used for the edge arrays: 3200000 = 2 · 2 · 6250 · 128 entries, read as two halves of two blocks of
    6250 rows of 128 lanes. -/
theorem sum_flat_2x2x6250x128 {M : Type*} [AddCommMonoid M] (f : Fin 3200000 → M) :
    ∑ e, f e = ∑ a : Fin 2, ∑ b : Fin 2, ∑ r : Fin 6250, ∑ l : Fin 128,
      f ⟨((a.val * 2 + b.val) * 6250 + r.val) * 128 + l.val, by omega⟩ :=
  Fin.sum_rowMajor4 2 2 6250 128 f
-- ==== Proof.Spec.lean ====
/-
  The averaged channel response as ONE function of the three argument arrays, and the one law the certificate needs.

  For a direction d and a subcarrier k, the attenuation factor is the sum over the 256 sampling points p and the 64 rank
  coordinates r of u[d,p,r] * F[k,r], evaluated with the point sum taken first: sum_r (sum_p u[d,p,r]) * F[k,r]. The
  radiation factor is the same expression of the second array. The response at k is the sum over the 1024 directions of
  the product of the two factors (divided by 1024 afterwards, on both sides by the same host division).

  The kernel visits the directions in 16 tiles of 64 and adds each tile's share to a running row; the reference sums all
  1024 directions at once. The law joining them is re-bracketing a finite sum in a commutative monoid: a sum over the
  flat index 64 t + j is the sum over t of the sums over j. It holds on the extended reals without any finiteness.
-/
import Idealize.ShloMosaic.PureOps.Ideal
import Idealize.ShloMosaic.Lib.ValueIdx
import proofs.«148499_j89824946028957_1_alg».proof.Proof.LibSumBlocks

noncomputable section

namespace Cert.Csi

open Idealize.ShloMosaic Idealize.ShloMosaic.ValueIdx

/-- Directions × sampling points × rank. -/
abbrev Sdpr : Shape := ⟨3, ![1024, 256, 64]⟩
/-- Subcarriers × rank. -/
abbrev Skr : Shape := ⟨2, ![1024, 64]⟩

variable (a b : Sdpr.Idx → EReal) (f : Skr.Idx → EReal)

/-- The sum over the 256 sampling points of direction `d`'s vectors, at rank coordinate `r`. -/
def pointSum (u : Sdpr.Idx → EReal) (d : Fin 1024) (r : Fin 64) : EReal := ∑ p : Fin 256, u (ix3 d p r)

/-- Direction `d`'s factor at subcarrier `k`: the point sums contracted over the rank axis with the basis vector of `k`. -/
def factor (u : Sdpr.Idx → EReal) (d : Fin 1024) (k : Fin 1024) : EReal := ∑ r : Fin 64, pointSum u d r * f (ix2 k r)

/-- Direction `d`'s contribution at subcarrier `k`: attenuation factor times radiation factor. -/
def pair (d : Fin 1024) (k : Fin 1024) : EReal := factor f a d k * factor f b d k

/-- The response before the final division: all 1024 directions' contributions. -/
def total (k : Fin 1024) : EReal := ∑ d : Fin 1024, pair a b f d k

/-- Tile `t`'s share: the contributions of the 64 directions `64 t, …, 64 t + 63`. -/
def tileSum (t : Fin 16) (k : Fin 1024) : EReal := ∑ j : Fin 64, pair a b f ⟨t.val * 64 + j.val, Fin.rowMajor_lt t j⟩ k

/-- The 1024 directions are the 16 tiles of 64, in order. -/
theorem total_eq_tiles (k : Fin 1024) : total a b f k = ∑ t : Fin 16, tileSum a b f t k :=
  Fin.sum_rowMajor2 16 64 (fun d => pair a b f d k)

/-- The running row after tiles `0, …, n`. -/
def running (k : Fin 1024) (n : ℕ) (hn : n < 16) : EReal :=
  ∑ t : Fin (n + 1), tileSum a b f (Fin.castLE (Nat.succ_le_of_lt hn) t) k

theorem running_zero (k : Fin 1024) (h : 0 < 16) : running a b f k 0 h = tileSum a b f ⟨0, h⟩ k := by
  unfold running
  rw [Fin.sum_univ_one]
  rfl

theorem running_succ (k : Fin 1024) (n : ℕ) (h : n + 1 < 16) :
    running a b f k (n + 1) h = running a b f k n (Nat.lt_of_succ_lt h) + tileSum a b f ⟨n + 1, h⟩ k := by
  unfold running
  rw [Fin.sum_univ_castSucc]
  rfl

/-- After the last tile the running row is the whole sum over the directions. -/
theorem running_last (k : Fin 1024) (h : 15 < 16) : running a b f k 15 h = total a b f k := by
  rw [total_eq_tiles]
  unfold running
  rfl

end Cert.Csi

end
-- ==== Proof.RefValue.lean ====
/-
  The reference, read index by index: before its final division it holds, at subcarrier k, the sum over all 1024
  directions of the product of the two factors — each factor the point sums (taken first, as the reference's lowering
  does) contracted over the rank axis with the basis vector of k. The host sums start from the zero word, which is the
  extended real 0.
-/
import proofs.«148499_j89824946028957_1_alg».proof.Proof.Gen.ReferenceIdeal.Read
import proofs.«148499_j89824946028957_1_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Csi

variable (x0 x1 : (⟨S1024x256x64, .f32⟩ : BufTy).Contents (Elt Ideal)) (x2 : (⟨S1024x64, .f32⟩ : BufTy).Contents (Elt Ideal))

/-- The first reduction: the point sum of direction `d` at rank coordinate `r`. -/
theorem v0_apply (d : Fin 1024) (r : Fin 64) : val_main_v0 (F := Ideal) x0 (ix2 d r) = pointSum x0 d r := by
  rw [val_main_v0_apply, val_main_cst_apply]
  show Ideal.ofBits .f32 0x00000000#32 + _ = _
  rw [Ideal.ofBits_zero_f32, zero_add]
  unfold pointSum
  exact Finset.sum_congr rfl fun p _ => congrArg x0 (funext fun a => by
    match a with | ⟨0, _⟩ => rfl | ⟨1, _⟩ => rfl | ⟨2, _⟩ => rfl)

theorem v2_apply (d : Fin 1024) (r : Fin 64) : val_main_v2 (F := Ideal) x1 (ix2 d r) = pointSum x1 d r := by
  rw [val_main_v2_apply, val_main_cst_0_apply]
  show Ideal.ofBits .f32 0x00000000#32 + _ = _
  rw [Ideal.ofBits_zero_f32, zero_add]
  unfold pointSum
  exact Finset.sum_congr rfl fun p _ => congrArg x1 (funext fun a => by
    match a with | ⟨0, _⟩ => rfl | ⟨1, _⟩ => rfl | ⟨2, _⟩ => rfl)

/-- The contraction reads the point sums at `(d, r)` and the basis at `(k, r)`. -/
theorem lidx_eq (d k : Fin 1024) (r : Fin 64) : lidx_main_v1 (ix2 d k) r = ix2 d r :=
  funext fun a => by match a with | ⟨0, _⟩ => rfl | ⟨1, _⟩ => rfl
theorem ridx_eq (d k : Fin 1024) (r : Fin 64) : ridx_main_v1 (ix2 d k) r = ix2 k r :=
  funext fun a => by match a with | ⟨0, _⟩ => rfl | ⟨1, _⟩ => rfl
theorem lidx3_eq (d k : Fin 1024) (r : Fin 64) : lidx_main_v3 (ix2 d k) r = ix2 d r :=
  funext fun a => by match a with | ⟨0, _⟩ => rfl | ⟨1, _⟩ => rfl
theorem ridx3_eq (d k : Fin 1024) (r : Fin 64) : ridx_main_v3 (ix2 d k) r = ix2 k r :=
  funext fun a => by match a with | ⟨0, _⟩ => rfl | ⟨1, _⟩ => rfl

/-- The attenuation factor of direction `d` at subcarrier `k`. -/
theorem v1_apply (d k : Fin 1024) : val_main_v1 (F := Ideal) x0 x2 (ix2 d k) = factor x2 x0 d k := by
  rw [val_main_v1_apply]
  unfold factor
  exact Finset.sum_congr rfl fun r _ => by rw [lidx_eq, ridx_eq, v0_apply]

/-- The radiation factor of direction `d` at subcarrier `k`. -/
theorem v3_apply (d k : Fin 1024) : val_main_v3 (F := Ideal) x1 x2 (ix2 d k) = factor x2 x1 d k := by
  rw [val_main_v3_apply]
  unfold factor
  exact Finset.sum_congr rfl fun r _ => by rw [lidx3_eq, ridx3_eq, v2_apply]

/-- Before the division the reference holds, at subcarrier `k`, the total over the directions. -/
theorem v5_apply (k : Fin 1024) : val_main_v5 (F := Ideal) x0 x1 x2 (ix1 k) = total x0 x1 x2 k := by
  rw [val_main_v5_apply, val_main_cst_1_apply]
  show Ideal.ofBits .f32 0x00000000#32 + _ = _
  rw [Ideal.ofBits_zero_f32, zero_add]
  unfold total pair
  refine Finset.sum_congr rfl fun d _ => ?_
  have e : idx_main_v5 (ix1 k) d = ix2 d k := funext fun a => by match a with | ⟨0, _⟩ => rfl | ⟨1, _⟩ => rfl
  rw [e, val_main_v4_apply, v1_apply, v3_apply]
  rfl

theorem v5_eq : val_main_v5 (F := Ideal) x0 x1 x2 = fun i => total x0 x1 x2 (i 0) := by
  funext i
  obtain ⟨k, rfl⟩ : ∃ k : Fin 1024, i = ix1 k := ⟨i 0, eq_ix1 i⟩
  exact v5_apply x0 x1 x2 k

end Cert.ReferenceIdeal.RefValue

end
-- ==== Proof.Pieces.lean ====
/-
  What one visit of the kernel body leaves in the output row, as a value.

  At the first tile the body stores the zero row, reads it back, and stores "row + this tile's share" over it; at every
  later tile it reads the row the previous tile left and stores "row + this tile's share". In both cases the row the
  body leaves is the one store payload `k0_pay2` of the three input blocks and the row read: the zero row at the first
  tile, the carried row afterwards.
-/
import proofs.«148499_j89824946028957_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Tiles

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later tile (any point but the first): the body leaves the payload of its blocks and the carried row. -/
theorem out_B (c : Dev nD) (i : grid0.Coords) (a1 : Memref sig .tc .vmem S64x256x64 .f32) (h1 : a1.IsWhole)
    (a2 : Memref sig .tc .vmem S64x256x64 .f32) (h2 : a2.IsWhole) (a3 : Memref sig .tc .vmem S64x1024 .f32) (h3 : a3.IsWhole)
    (a4 : Memref sig .tc .vmem S1x1024 .f32) (h4 : a4.IsWhole) (hc : ¬cond0_0 i)
    (x0 x1 : Vec F S64x256x64 .f32) (x2 : Vec F S64x1024 .f32) (xo : Vec F S1x1024 .f32) :
    out0_B_3 c i a1 h1 a2 h2 a3 h3 a4 h4 hc x0 x1 x2 xo = k0_pay2 x0 x1 x2 xo := by
  unfold out0_B_3
  rw [View.read_writes_eq_canon _ _ _ (cover0_B_3 c i a1 h1 a2 h2 a3 h3 a4 h4 hc x0 x1 x2 xo)]
  unfold kernelRun0_B
  dsimp only
  sl_unfold_words
  rw [View.canon_unit_zero hz2]
  simp only [View.readAt_eq_ld, h1.read_unread, h2.read_unread, h3.read_unread, h4.read_unread,
    View.ld_unit_zero (S := S64x256x64) hz3, View.ld_unit_zero (S := S64x1024) hz2, View.ld_unit_zero (S := S1x1024) hz2]

/-- The first tile: the body leaves the payload of its blocks and the zero row it has just stored. -/
theorem out_A (c : Dev nD) (i : grid0.Coords) (a1 : Memref sig .tc .vmem S64x256x64 .f32) (h1 : a1.IsWhole)
    (a2 : Memref sig .tc .vmem S64x256x64 .f32) (h2 : a2.IsWhole) (a3 : Memref sig .tc .vmem S64x1024 .f32) (h3 : a3.IsWhole)
    (a4 : Memref sig .tc .vmem S1x1024 .f32) (h4 : a4.IsWhole) (hc : cond0_0 i)
    (x0 x1 : Vec F S64x256x64 .f32) (x2 : Vec F S64x1024 .f32) :
    out0_A_3 c i a1 h1 a2 h2 a3 h3 a4 h4 hc x0 x1 x2 = k0_pay2 x0 x1 x2 (k0_pay1 (F := F)) := by
  unfold out0_A_3
  rw [View.read_writes_eq_canon _ _ _ (cover0_A_3 c i a1 h1 a2 h2 a3 h3 a4 h4 hc x0 x1 x2)]
  unfold kernelRun0_A
  dsimp only
  sl_unfold_words
  rw [View.canon_cons_unit_zero (S := S1x1024) hz2, View.readCov_unit_zero (S := S1x1024) _ hz2]
  simp only [View.readAt_eq_ld, h1.read_unread, h2.read_unread, h3.read_unread,
    View.ld_unit_zero (S := S64x256x64) hz3, View.ld_unit_zero (S := S64x1024) hz2, View.ld_unit_zero (S := S1x1024) hz2]

end Cert.KernelIdeal.Tiles

end
-- ==== Proof.Payload.lean ====
/-
  The body's one accumulating store, read at an index of the row.

  Over a tile of 64 directions the body takes each direction's point sums (a lane reduction over the 256 sampling
  points), contracts them over the rank axis with the basis block on the matrix unit (into a zero accumulator, so the
  result is just the sum of products; the bf16 casts of the operands are the identity on the extended reals), multiplies
  the two factor matrices entry by entry, sums the 64 rows, and adds the result to the row it read. At subcarrier k:

      row k + sum over the tile's 64 directions j of
                (sum_r (sum_p u0[j,p,r]) * w[r,k]) * (sum_r (sum_p u1[j,p,r]) * w[r,k]).
-/
import proofs.«148499_j89824946028957_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Tiles

open Cert.KernelIdeal Cert.KernelIdeal.Gen

/-- A lane reduction over the sampling points of a block: at direction `j` of the tile and rank coordinate `r`, the sum
    over the 256 points. -/
theorem blockPointSum_apply (v : FVec Ideal S64x256x64 .f32) (j r : Fin 64) :
    multiReduction .add [1] S64x64 v 0x00000000#32 reduces_S64x256x64_S64x64 (.inl rfl) rfl (ix2 j r)
      = ∑ p : Fin 256, v (ix3 j p r) :=
  (Ideal.multiReduction_add_single v 0x00000000#32 reduces_S64x256x64_S64x64 (.inl rfl) rfl (ix2 j r)).trans
    (Finset.sum_congr rfl fun p _ => congrArg v (funext fun a => Fin.ext (by
      match a with | ⟨0, _⟩ => rfl | ⟨1, _⟩ => rfl | ⟨2, _⟩ => rfl)))

/-- The reduction over the tile's 64 rows: at subcarrier `k`, the sum over the rows. -/
theorem rowsSum_apply (P : FVec Ideal S64x1024 .f32) (k : Fin 1024) :
    multiReduction .add [0] S1024 P 0x00000000#32 reduces_S64x1024_S1024 (.inl rfl) rfl (ix1 k)
      = ∑ j : Fin 64, P (ix2 j k) :=
  (Ideal.multiReduction_add_single P 0x00000000#32 reduces_S64x1024_S1024 (.inl rfl) rfl (ix1 k)).trans
    (Finset.sum_congr rfl fun j _ => congrArg P (funext fun a => Fin.ext (by
      match a with | ⟨0, _⟩ => rfl | ⟨1, _⟩ => rfl)))

/-! The contraction: rows of the left operand against columns of the right one. -/

theorem lhs_axis0 (i : S64x1024.Idx) (q : dot_S64x64_S64x1024_S64x1024_1_0_0_1_n_n.contr.Idx) :
    (dot_S64x64_S64x1024_S64x1024_1_0_0_1_n_n.lhsIdx i q 0).val = (i 0).val := by
  unfold DotDims.lhsIdx
  rw [dif_neg (show ¬(0 : Fin S64x64.rank) ∈ dot_S64x64_S64x1024_S64x1024_1_0_0_1_n_n.lhsBatch by decide), dif_pos (show (0 : Fin S64x64.rank) ∈ dot_S64x64_S64x1024_S64x1024_1_0_0_1_n_n.lhsNonContracting by decide)]
  rfl
theorem lhs_axis1 (i : S64x1024.Idx) (q : dot_S64x64_S64x1024_S64x1024_1_0_0_1_n_n.contr.Idx) :
    (dot_S64x64_S64x1024_S64x1024_1_0_0_1_n_n.lhsIdx i q 1).val = (q ⟨0, by decide⟩).val :=
  dot_S64x64_S64x1024_S64x1024_1_0_0_1_n_n.lhsIdx_val_of_single rfl i q
theorem rhs_axis0 (i : S64x1024.Idx) (q : dot_S64x64_S64x1024_S64x1024_1_0_0_1_n_n.contr.Idx) :
    (dot_S64x64_S64x1024_S64x1024_1_0_0_1_n_n.rhsIdx i q 0).val = (q ⟨0, by decide⟩).val :=
  dot_S64x64_S64x1024_S64x1024_1_0_0_1_n_n.rhsIdx_val_of_single rfl i q
theorem rhs_axis1 (i : S64x1024.Idx) (q : dot_S64x64_S64x1024_S64x1024_1_0_0_1_n_n.contr.Idx) :
    (dot_S64x64_S64x1024_S64x1024_1_0_0_1_n_n.rhsIdx i q 1).val = (i 1).val := by
  unfold DotDims.rhsIdx
  rw [dif_neg (show ¬(1 : Fin S64x1024.rank) ∈ dot_S64x64_S64x1024_S64x1024_1_0_0_1_n_n.rhsBatch by decide), dif_pos (show (1 : Fin S64x1024.rank) ∈ dot_S64x64_S64x1024_S64x1024_1_0_0_1_n_n.rhsNonContracting by decide)]
  rfl

/-- The matrix product into the zero accumulator, at row `j` and column `k`: the sum over the 64 rank coordinates. -/
theorem product_apply (l : FVec Ideal S64x64 .bf16) (w : FVec Ideal S64x1024 .bf16) (j : Fin 64) (k : Fin 1024) :
    matmul dot_S64x64_S64x1024_S64x1024_1_0_0_1_n_n none l w (constant S64x1024 .f32 0x00000000#32) (ix2 j k)
      = ∑ r : Fin 64, l (ix2 j r) * w (ix2 r k) := by
  simp only [matmul]
  rw [Ideal.matmul_constant_zero_apply, ← Equiv.sum_comp (ValueIdx.contrEquiv1 dot_S64x64_S64x1024_S64x1024_1_0_0_1_n_n 64 rfl rfl).symm]
  refine Finset.sum_congr rfl fun r _ => ?_
  have hk := ValueIdx.contrEquiv1_symm_val dot_S64x64_S64x1024_S64x1024_1_0_0_1_n_n 64 rfl rfl r
  have el : dot_S64x64_S64x1024_S64x1024_1_0_0_1_n_n.lhsIdx (ix2 j k) ((ValueIdx.contrEquiv1 dot_S64x64_S64x1024_S64x1024_1_0_0_1_n_n 64 rfl rfl).symm r) = ix2 j r := funext fun a => Fin.ext (by
    match a with
    | ⟨0, _⟩ => exact lhs_axis0 _ _
    | ⟨1, _⟩ => exact (lhs_axis1 _ _).trans hk)
  have er : dot_S64x64_S64x1024_S64x1024_1_0_0_1_n_n.rhsIdx (ix2 j k) ((ValueIdx.contrEquiv1 dot_S64x64_S64x1024_S64x1024_1_0_0_1_n_n 64 rfl rfl).symm r) = ix2 r k := funext fun a => Fin.ext (by
    match a with
    | ⟨0, _⟩ => exact (rhs_axis0 _ _).trans hk
    | ⟨1, _⟩ => exact rhs_axis1 _ _)
  rw [el, er]

/-- The accumulating store's payload at subcarrier `k`. -/
theorem pay2_apply (v3 v5 : Vec Ideal S64x256x64 .f32) (v9 : Vec Ideal S64x1024 .f32) (v17 : Vec Ideal S1x1024 .f32) (k : Fin 1024) :
    k0_pay2 (F := Ideal) v3 v5 v9 v17 (ix2 (0 : Fin 1) k)
      = v17 (ix2 (0 : Fin 1) k) + ∑ j : Fin 64, (∑ r : Fin 64, (∑ p : Fin 256, v3 (ix3 j p r)) * v9 (ix2 r k))
          * (∑ r : Fin 64, (∑ p : Fin 256, v5 (ix3 j p r)) * v9 (ix2 r k)) := by
  unfold k0_pay2
  dsimp only
  rw [addf_apply, shapeCast_self, shapeCast_a_1a_apply, rowsSum_apply]
  refine congrArg (v17 (ix2 (0 : Fin 1) k) + ·) (Finset.sum_congr rfl fun j _ => ?_)
  rw [mulf_apply, product_apply, product_apply]
  simp only [truncf_apply, shapeCast_self]
  exact congrArg₂ (· * ·)
    (Finset.sum_congr rfl fun r _ => congrArg (· * v9 (ix2 r k)) (blockPointSum_apply v3 j r))
    (Finset.sum_congr rfl fun r _ => congrArg (· * v9 (ix2 r k)) (blockPointSum_apply v5 j r))

/-- The zero row the first tile stores is the extended real 0 everywhere. -/
theorem pay1_apply (i : S1x1024.Idx) : k0_pay1 (F := Ideal) i = 0 := by
  unfold k0_pay1
  exact Ideal.ofBits_zero_f32

end Cert.KernelIdeal.Tiles

end
-- ==== Proof.KernelValue.lean ====
/-
  The idealized kernel's run, read as values.

  Tile t's blocks of the two direction arrays are the directions 64 t … 64 t + 63 of the arrays, all points and rank
  coordinates; the third window is the whole transposed basis, so its entry (r, k) is the basis array's entry (k, r). With
  the payload read at an index this makes one visit of the body "row + tile t's share", and by induction over the grid
  points the output row after point n is the running sum of the shares of tiles 0 … n. The row is written back once,
  after the last point, and its one block is the whole [1, 1024] result array; the host then drops the unit axis and
  divides by 1024.
-/
import proofs.«148499_j89824946028957_1_alg».proof.Proof.Gen.KernelIdeal.Frame
import proofs.«148499_j89824946028957_1_alg».proof.Proof.Pieces
import proofs.«148499_j89824946028957_1_alg».proof.Proof.Payload
import proofs.«148499_j89824946028957_1_alg».proof.Proof.Spec
import Idealize.ShloMosaic.Lib.Pipeline.Value
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Tiles

open Cert.KernelIdeal Cert.KernelIdeal.Gen Cert.Csi

variable (m : (ℓ : Loc nD τ sig) → Buf (Elt Ideal) ℓ) (ρ : Dev nD → PrngReg)

/-- The three argument arrays as launched, over their literal shapes. -/
abbrev arrA (c : Dev nD) : Sdpr.Idx → EReal := m ((c.tc : Thread nD τ).loc main_arg0)
abbrev arrB (c : Dev nD) : Sdpr.Idx → EReal := m ((c.tc : Thread nD τ).loc main_arg1)
abbrev arrF (c : Dev nD) : Skr.Idx → EReal := m ((c.tc : Thread nD τ).loc main_arg2)

/-- The blocks the body finds at point `t`. -/
abbrev blkA (c : Dev nD) (t : Fin cfg0.N) : Vec Ideal S64x256x64 .f32 := iblk m c 0 t
abbrev blkB (c : Dev nD) (t : Fin cfg0.N) : Vec Ideal S64x256x64 .f32 := iblk m c 1 t
abbrev blkW (c : Dev nD) (t : Fin cfg0.N) : Vec Ideal S64x1024 .f32 := iblk m c 2 t

/-- A grid point as a tile number. -/
abbrev tileOf (t : Fin cfg0.N) : Fin 16 := ⟨t.val, lt_of_lt_of_eq t.isLt N_0⟩

/-- Where the windows' blocks sit: the direction windows move along axis 0 with the point, the basis window never moves. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0 :=
  (by decide +kernel : ∀ t : Fin grid0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0)

/-- Tile `t`'s block of the first array: direction `j` of the block is direction `64 t + j` of the array. -/
theorem blkA_apply (c : Dev nD) (t : Fin cfg0.N) (j : Fin 64) (p : Fin 256) (r : Fin 64) :
    blkA m c t (ix3 j p r) = arrA m c (ix3 ⟨(tileOf t).val * 64 + j.val, Fin.rowMajor_lt (tileOf t) j⟩ p r) := by
  obtain ⟨h0, h1, h2, -⟩ := idx_facts t
  unfold blkA iblk
  rw [View.read_apply]
  refine (congrFun (V_main_arg0 m c) _).trans ?_
  refine congrArg (m ((c.tc : Thread nD τ).loc main_arg0)) (funext fun a => Fin.ext ?_)
  match a with
  | ⟨0, _⟩ => show win0_0.index t 0 * 64 + 1 * j.val = t.val * 64 + j.val; rw [h0]; omega
  | ⟨1, _⟩ => show win0_0.index t 1 * 256 + 1 * p.val = p.val; rw [h1]; omega
  | ⟨2, _⟩ => show win0_0.index t 2 * 64 + 1 * r.val = r.val; rw [h2]; omega

theorem blkB_apply (c : Dev nD) (t : Fin cfg0.N) (j : Fin 64) (p : Fin 256) (r : Fin 64) :
    blkB m c t (ix3 j p r) = arrB m c (ix3 ⟨(tileOf t).val * 64 + j.val, Fin.rowMajor_lt (tileOf t) j⟩ p r) := by
  obtain ⟨-, -, -, h0, h1, h2, -⟩ := idx_facts t
  unfold blkB iblk
  rw [View.read_apply]
  refine (congrFun (V_main_arg1 m c) _).trans ?_
  refine congrArg (m ((c.tc : Thread nD τ).loc main_arg1)) (funext fun a => Fin.ext ?_)
  match a with
  | ⟨0, _⟩ => show win0_1.index t 0 * 64 + 1 * j.val = t.val * 64 + j.val; rw [h0]; omega
  | ⟨1, _⟩ => show win0_1.index t 1 * 256 + 1 * p.val = p.val; rw [h1]; omega
  | ⟨2, _⟩ => show win0_1.index t 2 * 64 + 1 * r.val = r.val; rw [h2]; omega

/-- The array the third window stages is the host's transpose of the basis array. -/
theorem V_basisT (c : Dev nD) :
    (V m c main_v0 : S64x1024.Idx → EReal)
      = transpose S64x1024 [1, 0] (m ((c.tc : Thread nD τ).loc main_arg2)) transposes_S1024x64_S64x1024_1_0 := by
  show StableHlo.after hostOps0 (fun b => m (c, b)) (Proc.devRef .tc main_v0) = _
  after_results

/-- The basis block at every point: entry `(r, k)` is the basis array's `(k, r)`. -/
theorem blkW_apply (c : Dev nD) (t : Fin cfg0.N) (r : Fin 64) (k : Fin 1024) :
    blkW m c t (ix2 r k) = arrF m c (ix2 k r) := by
  obtain ⟨-, -, -, -, -, -, h0, h1⟩ := idx_facts t
  unfold blkW iblk
  rw [View.read_apply]
  have e : (((cfg0.win 2).blk t).view.emb (ix2 r k) : S64x1024.Idx) = ix2 r k := funext fun a => Fin.ext (by
    match a with
    | ⟨0, _⟩ => show win0_2.index t 0 * 64 + 1 * r.val = r.val; rw [h0]; omega
    | ⟨1, _⟩ => show win0_2.index t 1 * 1024 + 1 * k.val = k.val; rw [h1]; omega)
  refine (congrArg (V m c main_v0) e).trans ?_
  refine (congrFun (V_basisT m c) (ix2 r k)).trans ?_
  exact transpose_ix2_apply _ _ r k

/-- One visit of the body at point `t`, at subcarrier `k`: the row it read plus tile `t`'s share. -/
theorem visit_apply (c : Dev nD) (t : Fin cfg0.N) (xo : Vec Ideal S1x1024 .f32) (k : Fin 1024) :
    k0_pay2 (F := Ideal) (iblk m c 0 t) (iblk m c 1 t) (iblk m c 2 t) xo (ix2 (0 : Fin 1) k)
      = xo (ix2 (0 : Fin 1) k) + tileSum (arrA m c) (arrB m c) (arrF m c) (tileOf t) k := by
  refine (pay2_apply (blkA m c t) (blkB m c t) (blkW m c t) xo k).trans ?_
  refine congrArg (xo (ix2 (0 : Fin 1) k) + ·) ?_
  unfold tileSum pair factor pointSum
  refine Finset.sum_congr rfl fun j _ => congrArg₂ (· * ·) ?_ ?_
  · exact Finset.sum_congr rfl fun r _ => congrArg₂ (· * ·)
      (Finset.sum_congr rfl fun p _ => blkA_apply m c t j p r) (blkW_apply m c t r k)
  · exact Finset.sum_congr rfl fun r _ => congrArg₂ (· * ·)
      (Finset.sum_congr rfl fun p _ => blkB_apply m c t j p r) (blkW_apply m c t r k)

/-- THE ACCUMULATION: after point `n` the output row holds the running sum of the shares of tiles `0, …, n`. -/
theorem outsAt_apply (c : Dev nD) (k : Fin 1024) : ∀ (n : ℕ) (h : n < cfg0.N),
    outsAt0 m c n h (ix2 (0 : Fin 1) k) = running (arrA m c) (arrB m c) (arrF m c) k n (lt_of_lt_of_eq h N_0)
  | 0, h => by
    have e := (outsAt0_A m c ⟨0, h⟩ rfl).trans
      (out_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
        (ms0_3 ⟨0, h⟩) (hs0_3 ⟨0, h⟩) ((hcond0_0 ⟨0, h⟩).mpr rfl) (iblk m c 0 ⟨0, h⟩) (iblk m c 1 ⟨0, h⟩) (iblk m c 2 ⟨0, h⟩))
    refine (congrFun e (ix2 (0 : Fin 1) k)).trans ?_
    refine (visit_apply m c ⟨0, h⟩ (k0_pay1 (F := Ideal)) k).trans ?_
    rw [pay1_apply, zero_add, running_zero]
  | n + 1, h => by
    have hN : n + 1 < 16 := lt_of_lt_of_eq h N_0
    have hB : ¬(⟨n + 1, h⟩ : Fin cfg0.N).val % 16 = 0 := by dsimp only; omega
    have e := (outsAt0_B m c ⟨n + 1, h⟩ hB).trans
      (out_B c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (ms0_3 ⟨n + 1, h⟩) (hs0_3 ⟨n + 1, h⟩)
        (fun hh => hB ((hcond0_0 ⟨n + 1, h⟩).mp hh)) (iblk m c 0 ⟨n + 1, h⟩) (iblk m c 1 ⟨n + 1, h⟩) (iblk m c 2 ⟨n + 1, h⟩)
        (outsAt0 m c n (Nat.lt_of_succ_lt h)))
    refine (congrFun e (ix2 (0 : Fin 1) k)).trans ?_
    refine (visit_apply m c ⟨n + 1, h⟩ (outsAt0 m c n (Nat.lt_of_succ_lt h)) k).trans ?_
    rw [outsAt_apply c k n (Nat.lt_of_succ_lt h), running_succ]

/-- The row after the last point, as contents of the [1, 1024] result array (its one block is the whole array). -/
abbrev lastRow (c : Dev nD) : Buf (Elt Ideal) ((c : Thread nD τ).loc main_v1) :=
  outsAt0 m c 15 (by rw [show cfg0.N = 16 from N_0]; decide)

/-- The one write-back, after point 15, writes that row: block (0, 0) read through zero offsets is the array. -/
theorem flushed_eq (c : Dev nD) (t : Fin cfg0.N) (hf : (cfg0.win 3).flush t = true) :
    (dats m 0 c).flushed 3 t = ((cfg0.win 3).blk t).view.read (Elt Ideal) (lastRow m c) := by
  have hN : cfg0.N = 16 := N_0
  have h15 : t.val = 15 := by have := (flush0_3 t).mp hf; have := t.isLt; omega
  obtain rfl : t = t0_15 := Fin.ext h15
  show (cfg0.win 3).cut (grid0.coords t0_15) ((dats m 0 c).after 3 t0_15) = _
  rw [after0_3]
  have hz' : (fun a => win0_3.index t0_15 a * main_v1.ty.shape.size a) = fun _ => 0 := funext fun a => by fin_cases a <;> decide
  exact (Memref.read_access_unit_zero (Elt Ideal) main_v1 hz' (fun a => by rw [congrFun hz' a]; simp) (lastRow m c)).symm

/-- So the result array ends holding the row after the last point. -/
theorem final_row (c : Dev nD) : (dats m 0 c).arrAt 3 cfg0.N = lastRow m c :=
  (dats m 0 c).arrAt_eq_of_cover 3 (lastRow m c) (flushed_eq m c) fun i =>
    ⟨t0_15, (flush0_3 t0_15).mpr rfl, by
      show i ∈ ((View.whole main_v1).slice (win0_3.rect t0_15)).set
      rw [View.set_slice_whole, Rect.mem_set_unit]
      intro a
      have h0 : (i 0 : Nat) < 1 := (i 0).isLt
      have h1 : (i 1 : Nat) < 1024 := (i 1).isLt
      match a with
      | ⟨0, _⟩ => show win0_3.index t0_15 0 * win0_3.size 0 ≤ (i 0 : Nat) ∧ (i 0 : Nat) < win0_3.index t0_15 0 * win0_3.size 0 + win0_3.xsize (grid0.coords t0_15) 0
                  rw [show win0_3.index t0_15 0 * win0_3.size 0 = 0 from by decide +kernel, show win0_3.xsize (grid0.coords t0_15) 0 = 1 from by decide +kernel]; omega
      | ⟨1, _⟩ => show win0_3.index t0_15 1 * win0_3.size 1 ≤ (i 1 : Nat) ∧ (i 1 : Nat) < win0_3.index t0_15 1 * win0_3.size 1 + win0_3.xsize (grid0.coords t0_15) 1
                  rw [show win0_3.index t0_15 1 * win0_3.size 1 = 0 from by decide +kernel, show win0_3.xsize (grid0.coords t0_15) 1 = 1024 from by decide +kernel]; omega⟩

/-- The host operations after the region: drop the unit axis, divide by the constant 1024. -/
def tail (x : S1024.Idx → EReal) : S1024.Idx → EReal :=
  Host.divf (F := Ideal) x (broadcastInDim S1024 ![] bcast_S_S1024 (constant (F := Ideal) S_ .f32 0x44800000#32))

/-- The program's result: the host tail of the row's 1024 entries, each the total over the directions. -/
theorem result_eq (c : Dev nD) :
    Pipeline.afterTail₀ cfgs (dats m) 0 (V0 m) [hostOps1] c main_v4
      = tail (fun i => total (arrA m c) (arrB m c) (arrF m c) (i 0)) := by
  unfold Pipeline.afterTail₀
  show StableHlo.after hostOps1 _ (Proc.devRef .tc main_v4) = _
  after_results
  unfold tail
  refine congrArg (fun x => Host.divf (F := Ideal) x _) ?_
  rw [(Pipeline.withArrays_arr spec0 launch0.win.arr_inj c _ _ 3).trans (final_row m c)]
  funext i
  obtain ⟨k, rfl⟩ : ∃ k : Fin 1024, i = ix1 k := ⟨i 0, eq_ix1 i⟩
  refine (shapeCast_1a_a_apply _ _ k).trans ?_
  exact (outsAt_apply m c k 15 _).trans (running_last _ _ _ k _)

/-- The run, read: the result at the tail of the totals, the three arguments unchanged. -/
theorem run : θ_run defs (onTc (τ := τ) (main (F := Ideal))) ⟨m, fun _ => 0, ρ⟩ fun r => ∀ c : Dev nD,
      r.2.mem ((c.tc : Thread nD τ).loc main_v4) = tail (fun i => total (arrA m c) (arrB m c) (arrF m c) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Tiles

end
-- ==== Proof.lean ====
/-
  Equivalence over the extended reals of a tiled channel-response kernel and its jnp reference.

  Both programs compute, for each of 1024 subcarriers k,

      csi[k] = (1/1024) * sum over 1024 directions d of A[d,k] * B[d,k],
      A[d,k] = sum_r (sum_p atten[d,p,r]) * F[k,r],    B[d,k] = sum_r (sum_p rad[d,p,r]) * F[k,r],

  the sums over the 256 sampling points p taken first and the rank axis r (64) contracted afterwards: the reference's
  einsum lowers to exactly this order, so the two sides agree factor by factor. The kernel walks the directions in 16
  tiles of 64: per tile it forms the point sums on the vector unit, the two contractions on the matrix unit against the
  transposed basis (the bf16 casts are the identity on the extended reals, the accumulator is zero), multiplies, sums the
  tile's 64 rows and adds the result to an output row that it zeroes at the first tile and carries from tile to tile. The
  reference sums all 1024 directions at once. The only law between them is re-bracketing a finite sum of extended reals
  (a sum over the flat direction index 64 t + j is the sum over t of the sums over j), which needs no finiteness, so the
  precondition is never opened. The final division by 1024 is the same host operation on both sides and is never
  evaluated.

  The three frames: the two kernels' are the generated frame certificates; the reference's is its generated run with
  the result dropped. The idealization rewrote nothing, so `preserves` is `True`.
-/
import proofs.«148499_j89824946028957_1_alg».proof.Defs
import proofs.«148499_j89824946028957_1_alg».proof.Proof.Gen.Kernel
import proofs.«148499_j89824946028957_1_alg».proof.Proof.Gen.Kernel.Skeleton
import proofs.«148499_j89824946028957_1_alg».proof.Proof.Gen.Kernel.Launch
import proofs.«148499_j89824946028957_1_alg».proof.Proof.Gen.Kernel.Points
import proofs.«148499_j89824946028957_1_alg».proof.Proof.Gen.Kernel.Frame
import proofs.«148499_j89824946028957_1_alg».proof.Proof.Gen.KernelIdeal
import proofs.«148499_j89824946028957_1_alg».proof.Proof.Gen.KernelIdeal.Skeleton
import proofs.«148499_j89824946028957_1_alg».proof.Proof.Gen.KernelIdeal.Launch
import proofs.«148499_j89824946028957_1_alg».proof.Proof.Gen.KernelIdeal.Points
import proofs.«148499_j89824946028957_1_alg».proof.Proof.Gen.KernelIdeal.Frame
import proofs.«148499_j89824946028957_1_alg».proof.Proof.Gen.ReferenceIdeal
import proofs.«148499_j89824946028957_1_alg».proof.Proof.Gen.ReferenceIdeal.Run
import proofs.«148499_j89824946028957_1_alg».proof.Proof.Gen.ReferenceIdeal.Read
import proofs.«148499_j89824946028957_1_alg».proof.Proof.Gen.Pre_finite_inputs
import proofs.«148499_j89824946028957_1_alg».proof.Proof.RefValue
import proofs.«148499_j89824946028957_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the extended reals the kernel's result ends at the host tail (drop the unit axis, divide by 1024) of the totals
    over the directions, accumulated tile by tile; the reference's at the same division of the same totals, summed at
    once, of arguments that agree. -/
theorem algebraic : Cert.algebraic_KernelIdeal_ReferenceIdeal := by
  intro m ρ m' ρ' _ hagree
  refine ⟨fun c => Cert.KernelIdeal.Tiles.tail (fun i => Cert.Csi.total (Cert.KernelIdeal.Tiles.arrA m c)
    (Cert.KernelIdeal.Tiles.arrB m c) (Cert.KernelIdeal.Tiles.arrF m c) (i 0)), Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq]
  unfold Cert.ReferenceIdeal.Read.val_main_v7
  rw [Cert.ReferenceIdeal.RefValue.v5_eq, (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
